-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096x2048 : Shape := ⟨2, ![4096, 2048]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x8192 .f32) (main_arg1 : FVec F S4096x2048 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x8192 : Shape := ⟨2, ![4096, 8192]⟩
abbrev S4096x2048 : Shape := ⟨2, ![4096, 2048]⟩
abbrev S4096x2048x4 : Shape := ⟨3, ![4096, 2048, 4]⟩
abbrev S_ : Shape := ⟨0, ![]⟩
abbrev S1x1 : Shape := ⟨2, ![1, 1]⟩
abbrev S128x2048 : Shape := ⟨2, ![128, 2048]⟩
abbrev S128 : Shape := ⟨1, ![128]⟩
abbrev S128x1 : Shape := ⟨2, ![128, 1]⟩
abbrev S1 : Shape := ⟨1, ![1]⟩

abbrev nBuf : Space → Nat
  | .hbm => 7
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x2048x4, .f32⟩
  | .hbm, ⟨3, _⟩ => ⟨S_, .f32⟩
  | .hbm, ⟨4, _⟩ => ⟨S4096x2048, .f32⟩
  | .hbm, ⟨5, _⟩ => ⟨S1x1, .f32⟩
  | .hbm, ⟨6, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v56 : BitVec 1 := Scalar.cmpi .eq arg0 c31_i32
  let v57 : BitVec 32 := Scalar.extui v56
  let c0_i32_23 : BitVec 32 := 0#32
  let v58 : BitVec 1 := Scalar.cmpi .ne v57 c0_i32_23
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S4096x8192_S4096x2048x4 : S4096x8192.ShapeCasts S4096x2048x4
  reducesTo_S4096x2048x4_S4096x2048_d2 : S4096x2048x4.ReducesTo [2] S4096x2048
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  rotates_S128x2048_d1 : S128x2048.Rotates 1 none
  iota_S128x2048_d1_w32 : S128x2048.Iotas .tc 32 [1]
  natLt_1_32 : 1 < 32
  reduces_S128x2048_S128 : S128x2048.Reduces [1] S128
  shapeCasts_S128_S128x1 : S128.ShapeCasts S128x1
  reduces_S128x1_S1 : S128x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v1) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x8192 : Shape := ⟨2, ![4096, 8192]⟩
abbrev S4096x2048 : Shape := ⟨2, ![4096, 2048]⟩
abbrev S4096x2047 : Shape := ⟨2, ![4096, 2047]⟩
abbrev S4096x2046 : Shape := ⟨2, ![4096, 2046]⟩
abbrev S_ : Shape := ⟨0, ![]⟩
abbrev S4096x2048x4 : Shape := ⟨3, ![4096, 2048, 4]⟩
abbrev S4096 : Shape := ⟨1, ![4096]⟩

abbrev nBuf : Space → Nat
  | .hbm => 53
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x2047, .f32⟩
  | .hbm, ⟨3, _⟩ => ⟨S4096x2047, .f32⟩
  | .hbm, ⟨4, _⟩ => ⟨S4096x2047, .f32⟩
  | .hbm, ⟨5, _⟩ => ⟨S4096x2046, .f32⟩
  | .hbm, ⟨6, _⟩ => ⟨S4096x2046, .f32⟩
  | .hbm, ⟨7, _⟩ => ⟨S4096x2046, .f32⟩
  | .hbm, ⟨8, _⟩ => ⟨S_, .f32⟩
  | .hbm, ⟨9, _⟩ => ⟨S4096x2046, .f32⟩
  | .hbm, ⟨10, _⟩ => ⟨S4096x2046, .i1⟩
  | .hbm, ⟨11, _⟩ => ⟨S4096x2046, .f32⟩
  | .hbm, ⟨12, _⟩ => ⟨S_, .f32⟩
  | .hbm, ⟨13, _⟩ => ⟨S4096x2046, .f32⟩
  | .hbm, ⟨14, _⟩ => ⟨S4096x2046, .i1⟩
  | .hbm, ⟨15, _⟩ => ⟨S4096x2046, .i1⟩
  | .hbm, ⟨16, _⟩ => ⟨S4096x2048x4, .f32⟩
  | .hbm, ⟨17, _⟩ => ⟨S_, .f32⟩
  | .hbm, ⟨18, _⟩ => ⟨S4096x2048, .f32⟩
  | .hbm, ⟨19, _⟩ => ⟨S4096x2046, .f32⟩
  | .hbm, ⟨20, _⟩ => ⟨S4096x2046, .f32⟩
  | .hbm, ⟨21, _⟩ => ⟨S4096x2046, .f32⟩
  | .hbm, ⟨22, _⟩ => ⟨S4096x2046, .f32⟩
  | .hbm, ⟨23, _⟩ => ⟨S4096x2046, .f32⟩
  | .hbm, ⟨24, _⟩ => ⟨S_, .f32⟩
  | .hbm, ⟨25, _⟩ => ⟨S4096, .f32⟩
  | .hbm, ⟨26, _⟩ => ⟨S4096x2046, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .i1⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S4096, .i32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_call0_v0 : Ref sig .tc := ⟨.hbm, 37, rfl⟩
abbrev main_call0_v1 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  slices_S4096x2048_S4096x2047_0_1 : S4096x2048.Slices ![0, 1] S4096x2047
  slices_S4096x2048_S4096x2047_0_0 : S4096x2048.Slices ![0, 0] S4096x2047
  slices_S4096x2047_S4096x2046_0_1 : S4096x2047.Slices ![0, 1] S4096x2046
  slices_S4096x2047_S4096x2046_0_0 : S4096x2047.Slices ![0, 0] S4096x2046
  bcast_S_S4096x2046 : S_.BroadcastsInDim S4096x2046 (![] : Fin 0 → Fin S4096x2046.rank)
  shapeCasts_S4096x8192_S4096x2048x4 : S4096x8192.ShapeCasts S4096x2048x4
  reducesTo_S4096x2048x4_S4096x2048_d2 : S4096x2048x4.ReducesTo [2] S4096x2048
  h_S_ : 0 < S_.numel
  slices_S4096x2048_S4096x2046_0_1 : S4096x2048.Slices ![0, 1] S4096x2046
  reducesTo_S4096x2046_S4096_d1 : S4096x2046.ReducesTo [1] S4096
  bcast_S_S4096 : S_.BroadcastsInDim S4096 (![] : Fin 0 → Fin S4096.rank)
  reducesTo_S4096_S_d0 : S4096.ReducesTo [0] S_
  natLt_1_32 : 1 < 32

variable [Facts₀]

class Facts : Prop extends Facts₀ where

variable [Facts]
-- ==== Proof.Spec.lean ====
/-
  The loss both programs compute, stated once over the two argument arrays read as extended reals.

  A row `y` of 2048 samples has a strict local maximum at an interior sample `k` (1 ≤ k ≤ 2046) when the
  slope into it rises and the slope out of it has the opposite sign: `(y (k+1) - y k) * (y k - y (k-1)) < 0` and
  `y k - y (k-1) > 0`.  With `w` the window maxima of the prediction (one per sample), a row's loss is the mean of
  `(w k - y k)^2` over its maxima, and `0` for a row with none; the result is the mean of the row losses over the
  rows that have a maximum, and `0` when no row has one.  The interior samples are indexed by `j : Fin 2046`,
  sample `j + 1`, as the slices of the reference index them.
-/
import Idealize.ShloMosaic.PureOps.Ideal
import Idealize.ShloMosaic.Lib.ValueIdx

noncomputable section

namespace Cert.MaximaLoss

open Idealize.ShloMosaic Idealize.ShloMosaic.ValueIdx

/-- A [4096, 2048] array of extended reals: the target rows, or the window maxima of the prediction. -/
abbrev Arr : Type := (⟨2, ![4096, 2048]⟩ : Shape).Idx → EReal

/-- A one-bit word as the extended real `0` or `1`. -/
def ind (b : BitVec 1) : EReal := ((b.toNat : ℝ) : EReal)

/-- The test for a strict local maximum at a sample `b` with left neighbour `a` and right neighbour `c`: the
    product of the two slopes is negative and the left slope is positive. -/
def peak (a b c : EReal) : BitVec 1 :=
  IntOp.andi (Ideal.cmp .olt ((c - b) * (b - a)) 0) (Ideal.cmp .ogt (b - a) 0)

/-- Interior sample `j + 1`, and its two neighbours `j` and `j + 2`. -/
def mid (j : Fin 2046) : Fin 2048 := ⟨j.val + 1, by omega⟩
def lft (j : Fin 2046) : Fin 2048 := ⟨j.val, by omega⟩
def rgt (j : Fin 2046) : Fin 2048 := ⟨j.val + 2, by omega⟩

/-- Whether interior sample `j + 1` of row `r` is a strict local maximum. -/
def isPeak (y : Arr) (r : Fin 4096) (j : Fin 2046) : BitVec 1 :=
  peak (y (ix2 r (lft j))) (y (ix2 r (mid j))) (y (ix2 r (rgt j)))

/-- The squared distance between the window maximum and the target at sample `k` of row `r`. -/
def sq (w y : Arr) (r : Fin 4096) (k : Fin 2048) : EReal :=
  (w (ix2 r k) - y (ix2 r k)) * (w (ix2 r k) - y (ix2 r k))

/-- The number of maxima of row `r`. -/
def cnt (y : Arr) (r : Fin 4096) : EReal := ∑ j : Fin 2046, ind (isPeak y r j)

/-- The sum of the squared distances over the maxima of row `r`. -/
def num (w y : Arr) (r : Fin 4096) : EReal := ∑ j : Fin 2046, sq w y r (mid j) * ind (isPeak y r j)

/-- The float `1.0`, kept as its word: both programs divide by `max count 1.0` with this same word. -/
def one : EReal := Ideal.ofBits .f32 0x3F800000#32

/-- Whether row `r` has a maximum. -/
def valid (y : Arr) (r : Fin 4096) : BitVec 1 := Ideal.cmp .ogt (cnt y r) 0

/-- Row `r`'s loss: the mean squared distance over its maxima, `0` when it has none. -/
def rowLoss (w y : Arr) (r : Fin 4096) : EReal :=
  Scalar.select (valid y r) (Ideal.div (num w y r) (max (cnt y r) one)) 0

/-- The sum of the row losses, and the number of rows with a maximum. -/
def total (w y : Arr) : EReal := ∑ r : Fin 4096, rowLoss w y r
def nvalid (y : Arr) : EReal := ∑ r : Fin 4096, ind (valid y r)

/-- The loss: the mean row loss over the rows with a maximum, `0` when there is none. -/
def loss (w y : Arr) : EReal :=
  Scalar.select (Ideal.cmp .ogt (nvalid y) 0) (Ideal.div (total w y) (max (nvalid y) one)) 0

end Cert.MaximaLoss

end
-- ==== Proof.Sums.lean ====
/-
  Sums over rows, lanes and tiles: the arithmetic that joins the kernel's way of summing to the reference's.

  The kernel visits all 2048 lanes of a row and clears the two boundary lanes by a bit computed from the lane number,
  its neighbours taken cyclically; the reference visits the 2046 interior samples.  The kernel sums the rows tile by
  tile, 32 tiles of 128 rows, one tile per grid point, adding each tile's sum to a running total; the reference sums
  all 4096 rows at once.  The kernel counts the rows with a maximum by adding the floats `0` and `1`; the reference adds
  32-bit integers and converts the count.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.PureOps.Ideal.Laws
import Idealize.ShloMosaic.PureOps.Reduce
import Idealize.ShloMosaic.Lib.ValueIdx
import proofs.«408400_j1391569404168_3_alg».proof.Proof.Spec

noncomputable section

namespace Cert.MaximaLoss

open Idealize.ShloMosaic Idealize.ShloMosaic.ValueIdx

/-! ## One-bit words -/

/-- A one-bit word is `0` or `1`. -/
private theorem bit_cases (b : BitVec 1) : b = 0#1 ∨ b = 1#1 := by
  have h : b.toNat = 0 ∨ b.toNat = 1 := by
    have := b.isLt
    omega
  rcases h with h | h
  · left; apply BitVec.eq_of_toNat_eq; simpa using h
  · right; apply BitVec.eq_of_toNat_eq; simpa using h

theorem ind_zero : ind 0#1 = 0 := by
  simp [ind]

theorem ind_one : ind 1#1 = 1 := by
  simp [ind]

/-- A bit widened to 32 bits and read as a signed integer is the bit. -/
theorem toInt_setWidth_bit (b : BitVec 1) : (((b.setWidth 32).toInt : ℝ) : EReal) = ind b := by
  rcases bit_cases b with rfl | rfl
  · have h : ((0#1).setWidth 32).toInt = 0 := by decide
    rw [h, ind_zero]; simp
  · have h : ((1#1).setWidth 32).toInt = 1 := by decide
    rw [h, ind_one]; simp

/-- A bit read as an unsigned integer is the bit. -/
theorem toNat_bit (b : BitVec 1) : ((b.toNat : ℝ) : EReal) = ind b := rfl

/-! ## Lanes of a row -/

/-- The lane before and the lane after lane `k`, around the end of the row. -/
def prv (k : Fin 2048) : Fin 2048 := ⟨(k.val + 2047) % 2048, Nat.mod_lt _ (by omega)⟩
def nxt (k : Fin 2048) : Fin 2048 := ⟨(k.val + 1) % 2048, Nat.mod_lt _ (by omega)⟩

/-- The bit that clears the two boundary lanes, from the lane number as a 32-bit word: not (lane = 0 or lane = 2047). -/
def interior (k : Fin 2048) : BitVec 1 :=
  IntOp.xori (IntOp.ori (IntOp.cmpi .eq (BitVec.ofNat 32 k.val) 0#32) (IntOp.cmpi .eq (BitVec.ofNat 32 k.val) 2047#32)) 1#1

/-- Lane `k` of row `r` is a maximum among its cyclic neighbours and is not a boundary lane. -/
def laneBit (y : Arr) (r : Fin 4096) (k : Fin 2048) : BitVec 1 :=
  IntOp.andi (peak (y (ix2 r (prv k))) (y (ix2 r k)) (y (ix2 r (nxt k)))) (interior k)

/-- A sum over the 2048 lanes whose two boundary terms vanish is the sum over the 2046 interior samples. -/
theorem sum_interior (f : Fin 2048 → EReal) (h0 : f ⟨0, by omega⟩ = 0) (h1 : f ⟨2047, by omega⟩ = 0) :
    ∑ k : Fin 2048, f k = ∑ j : Fin 2046, f (mid j) := by
  have e : ∑ k : Fin 2048, f k = ∑ k : Fin (2046 + 1 + 1), f k := rfl
  rw [e, Fin.sum_univ_succ, Fin.sum_univ_castSucc]
  have a0 : f (0 : Fin (2046 + 1 + 1)) = 0 := h0
  have a1 : f (Fin.succ (Fin.last 2046)) = 0 := h1
  rw [a0, a1, zero_add, add_zero]
  refine Finset.sum_congr rfl (fun j _ => ?_)
  congr 1

/-- The boundary lanes are cleared. -/
private theorem interior_first : interior ⟨0, by omega⟩ = 0#1 := by decide
private theorem interior_last : interior ⟨2047, by omega⟩ = 0#1 := by decide

/-- An interior lane is kept: its number, between 1 and 2046, is neither of the two boundary words. -/
private theorem interior_mid (j : Fin 2046) : interior (mid j) = 1#1 := by
  have hj := j.isLt
  have c0 : (BitVec.ofNat 32 (mid j).val == 0#32) = false := by
    rw [beq_eq_false_iff_ne]
    intro h
    have := congrArg BitVec.toNat h
    simp [mid, BitVec.toNat_ofNat] at this
    omega
  have c1 : (BitVec.ofNat 32 (mid j).val == 2047#32) = false := by
    rw [beq_eq_false_iff_ne]
    intro h
    have := congrArg BitVec.toNat h
    simp [mid, BitVec.toNat_ofNat] at this
    omega
  simp only [interior, IntOp.cmpi, c0, c1]
  decide

private theorem andi_one (x : BitVec 1) : IntOp.andi x 1#1 = x := by
  rcases bit_cases x with rfl | rfl <;> decide

private theorem andi_zero (x : BitVec 1) : IntOp.andi x 0#1 = 0#1 := by
  rcases bit_cases x with rfl | rfl <;> decide

private theorem prv_mid (j : Fin 2046) : prv (mid j) = lft j := by
  apply Fin.ext
  simp only [prv, mid, lft]
  have := j.isLt
  omega

private theorem nxt_mid (j : Fin 2046) : nxt (mid j) = rgt j := by
  apply Fin.ext
  simp only [nxt, mid, rgt]
  have := j.isLt
  omega

/-- At an interior lane the lane bit is the test for a maximum at that sample. -/
private theorem laneBit_mid (y : Arr) (r : Fin 4096) (j : Fin 2046) : laneBit y r (mid j) = isPeak y r j := by
  simp only [laneBit, isPeak, interior_mid, andi_one, prv_mid, nxt_mid]

private theorem laneBit_first (y : Arr) (r : Fin 4096) : laneBit y r ⟨0, by omega⟩ = 0#1 := by
  simp only [laneBit, interior_first, andi_zero]

private theorem laneBit_last (y : Arr) (r : Fin 4096) : laneBit y r ⟨2047, by omega⟩ = 0#1 := by
  simp only [laneBit, interior_last, andi_zero]

/-- The count of a row's maxima, lane by lane. -/
theorem sum_laneBit (y : Arr) (r : Fin 4096) : ∑ k : Fin 2048, ind (laneBit y r k) = cnt y r := by
  rw [sum_interior (fun k => ind (laneBit y r k)) (by simp only [laneBit_first, ind_zero])
    (by simp only [laneBit_last, ind_zero])]
  simp only [cnt, laneBit_mid]

/-- The sum of the squared distances over a row's maxima, lane by lane. -/
theorem sum_sq_laneBit (w y : Arr) (r : Fin 4096) : ∑ k : Fin 2048, sq w y r k * ind (laneBit y r k) = num w y r := by
  rw [sum_interior (fun k => sq w y r k * ind (laneBit y r k)) (by simp only [laneBit_first, ind_zero, mul_zero])
    (by simp only [laneBit_last, ind_zero, mul_zero])]
  simp only [num, laneBit_mid]

/-! ## Rows by tiles -/

/-- Row `p` of tile `t`. -/
def row (t : Fin 32) (p : Fin 128) : Fin 4096 := ⟨128 * t.val + p.val, by omega⟩

/-- A sum over the rows, tile by tile. -/
theorem sum_tiles (g : Fin 4096 → EReal) : ∑ t : Fin 32, ∑ p : Fin 128, g (row t p) = ∑ r : Fin 4096, g r := by
  -- the pairs (tile, row in the tile) are in bijection with the rows, by (t, p) ↦ p + 128 * t
  calc ∑ t : Fin 32, ∑ p : Fin 128, g (row t p)
      = ∑ x : Fin 32 × Fin 128, g (row x.1 x.2) := (Fintype.sum_prod_type' (fun t p => g (row t p))).symm
    _ = ∑ x : Fin 32 × Fin 128, g (finProdFinEquiv x) := by
        refine Finset.sum_congr rfl (fun x _ => ?_)
        congr 1
        apply Fin.ext
        simp only [row, finProdFinEquiv, Equiv.coe_fn_mk]
        omega
    _ = ∑ r : Fin 4096, g r := Equiv.sum_comp (finProdFinEquiv : Fin 32 × Fin 128 ≃ Fin (32 * 128)) g

/-- The tiles up to tile `n`: the running total after grid point `n`. -/
def upto (n : ℕ) : Finset (Fin 32) := Finset.univ.filter fun t => t.val ≤ n

theorem sum_upto_zero (f : Fin 32 → EReal) : ∑ t ∈ upto 0, f t = f ⟨0, by omega⟩ := by
  have e : upto 0 = {(⟨0, by omega⟩ : Fin 32)} := by
    ext t
    simp only [upto, Finset.mem_filter, Finset.mem_univ, true_and, Finset.mem_singleton, Fin.ext_iff]
    omega
  rw [e, Finset.sum_singleton]

theorem sum_upto_succ (f : Fin 32 → EReal) (n : ℕ) (h : n + 1 < 32) :
    ∑ t ∈ upto (n + 1), f t = (∑ t ∈ upto n, f t) + f ⟨n + 1, h⟩ := by
  have e : upto (n + 1) = insert (⟨n + 1, h⟩ : Fin 32) (upto n) := by
    ext t
    simp only [upto, Finset.mem_filter, Finset.mem_univ, true_and, Finset.mem_insert, Fin.ext_iff]
    omega
  have hn : (⟨n + 1, h⟩ : Fin 32) ∉ upto n := by
    simp only [upto, Finset.mem_filter, Finset.mem_univ, true_and]
    omega
  rw [e, Finset.sum_insert hn, add_comm]

theorem sum_upto_last (f : Fin 32 → EReal) : ∑ t ∈ upto 31, f t = ∑ t : Fin 32, f t := by
  have e : upto 31 = Finset.univ := by
    ext t
    simp only [upto, Finset.mem_filter, Finset.mem_univ, true_and, iff_true]
    have := t.isLt
    omega
  rw [e]

/-! ## The integer count -/

/-- A bit widened to 32 bits has the bit's value. -/
private theorem toNat_setWidth_bit (b : BitVec 1) : (b.setWidth 32).toNat = b.toNat := by
  rcases bit_cases b with rfl | rfl <;> decide

/-- Over any set of rows the 32-bit sum of the bits has the value of their natural sum, which is at most the number of
    rows in the set, hence at most 4096: no addition wraps. -/
private theorem fold_toNat (v : Fin 4096 → BitVec 1) (s : Finset (Fin 4096)) :
    (s.fold IntOp.addi 0#32 (fun r => (v r).setWidth 32)).toNat = ∑ r ∈ s, (v r).toNat := by
  induction s using Finset.induction_on with
  | empty => simp
  | insert a s ha ih =>
    rw [Finset.fold_insert ha, Finset.sum_insert ha]
    have hb : ∑ r ∈ s, (v r).toNat ≤ 4096 := by
      calc ∑ r ∈ s, (v r).toNat ≤ s.card • 1 :=
            Finset.sum_le_card_nsmul s _ 1 (fun r _ => by have := (v r).isLt; omega)
        _ = s.card := by simp
        _ ≤ Fintype.card (Fin 4096) := Finset.card_le_univ s
        _ = 4096 := Fintype.card_fin 4096
    have ha1 : (v a).toNat ≤ 1 := by have := (v a).isLt; omega
    show ((v a).setWidth 32 + s.fold IntOp.addi 0#32 (fun r => (v r).setWidth 32)).toNat = _
    rw [BitVec.toNat_add, ih, toNat_setWidth_bit]
    omega

/-- The natural count as an extended real is the sum of the bits as extended reals. -/
private theorem cast_sum_bits (v : Fin 4096 → BitVec 1) (s : Finset (Fin 4096)) :
    (((∑ r ∈ s, (v r).toNat : ℕ) : ℝ) : EReal) = ∑ r ∈ s, ind (v r) := by
  induction s using Finset.induction_on with
  | empty => simp
  | insert a s ha ih =>
    rw [Finset.sum_insert ha, Finset.sum_insert ha, Nat.cast_add, EReal.coe_add, ih]
    rfl

/-- Adding 4096 bits as 32-bit integers does not wrap: the sum read as a signed integer is the number of set bits. -/
theorem count_toInt (v : Fin 4096 → BitVec 1) :
    ((((Finset.univ : Finset (Fin 4096)).fold IntOp.addi 0#32 (fun r => (v r).setWidth 32)).toInt : ℝ) : EReal)
      = ∑ r : Fin 4096, ind (v r) := by
  have hn := fold_toNat v Finset.univ
  have hb : ∑ r : Fin 4096, (v r).toNat ≤ 4096 := by
    calc ∑ r : Fin 4096, (v r).toNat ≤ (Finset.univ : Finset (Fin 4096)).card • 1 :=
          Finset.sum_le_card_nsmul _ _ 1 (fun r _ => by have := (v r).isLt; omega)
      _ = 4096 := by simp
  have hi : ((Finset.univ : Finset (Fin 4096)).fold IntOp.addi 0#32 (fun r => (v r).setWidth 32)).toInt
      = ((∑ r : Fin 4096, (v r).toNat : ℕ) : ℤ) := by
    rw [BitVec.toInt_eq_toNat_of_lt (by rw [hn]; omega), hn]
  rw [hi, Int.cast_natCast]
  exact cast_sum_bits v Finset.univ

end Cert.MaximaLoss

end
-- ==== Proof.Reference.lean ====
/-
  The reference's result is the loss of the specification: read one operation at a time, its slices of the target
  pick the interior samples `j + 1` and their neighbours `j` and `j + 2`, its two row sums are the count and the
  sum of squared distances over a row's maxima, and its integer count of the rows with a maximum, converted to a
  float, is the sum of their indicator bits.
-/
import proofs.«408400_j1391569404168_3_alg».proof.Proof.RefRun
import proofs.«408400_j1391569404168_3_alg».proof.Proof.RefRead
import proofs.«408400_j1391569404168_3_alg».proof.Proof.Spec
import proofs.«408400_j1391569404168_3_alg».proof.Proof.Sums
import Idealize.ShloMosaic.Lib.ValueIdxRank1
import Idealize.ShloMosaic.PureOps.Reduce

noncomputable section

namespace Cert.ReferenceIdeal.RefValue

open Cert.ReferenceIdeal Cert.ReferenceIdeal.Gen Cert.ReferenceIdeal.ReadP Cert.MaximaLoss
open Idealize.ShloMosaic Idealize.ShloMosaic.ValueIdx

/-! ## The slices' index maps at explicit coordinates -/

/-- Sample `j + 2`: the upper slice of the upper slice. -/
private theorem idx_rgt (r : Fin 4096) (j : Fin 2046) :
    idx_main_v0 (idx_main_v3 (ix2 r j)) = ix2 r (rgt j) :=
  funext fun a => Fin.ext (by
    match a with
    | ⟨0, _⟩ => rfl
    | ⟨1, _⟩ => show 1 + (1 + j.val) = j.val + 2; omega)

/-- Sample `j + 1`, as the lower slice of the upper slice of differences. -/
private theorem idx_mid_a (r : Fin 4096) (j : Fin 2046) :
    idx_main_v1 (idx_main_v3 (ix2 r j)) = ix2 r (mid j) :=
  funext fun a => Fin.ext (by
    match a with
    | ⟨0, _⟩ => rfl
    | ⟨1, _⟩ => show 1 + j.val = j.val + 1; omega)

/-- Sample `j + 1`, as the upper slice of the lower slice of differences. -/
private theorem idx_mid_b (r : Fin 4096) (j : Fin 2046) :
    idx_main_v0 (idx_main_v4 (ix2 r j)) = ix2 r (mid j) :=
  funext fun a => Fin.ext (by
    match a with
    | ⟨0, _⟩ => rfl
    | ⟨1, _⟩ => show 1 + j.val = j.val + 1; omega)

/-- Sample `j`: the lower slice of the lower slice. -/
private theorem idx_lft (r : Fin 4096) (j : Fin 2046) :
    idx_main_v1 (idx_main_v4 (ix2 r j)) = ix2 r (lft j) :=
  funext fun a => Fin.ext (by
    match a with
    | ⟨0, _⟩ => rfl
    | ⟨1, _⟩ => rfl)

/-- The difference `y (k + 1) - y k` of neighbouring samples, read at an index of the upper slice … -/
private theorem diff_upper (x1 : (⟨S4096x2048, .f32⟩ : BufTy).Contents (Elt Ideal)) (r : Fin 4096) (j : Fin 2046) :
    val_main_v2 (F := Ideal) x1 (idx_main_v3 (ix2 r j)) = x1 (ix2 r (rgt j)) - x1 (ix2 r (mid j)) := by
  rw [val_main_v2_apply, val_main_v0_apply, val_main_v1_apply, idx_rgt, idx_mid_a]
  rfl

/-- … and of the lower slice. -/
private theorem diff_lower (x1 : (⟨S4096x2048, .f32⟩ : BufTy).Contents (Elt Ideal)) (r : Fin 4096) (j : Fin 2046) :
    val_main_v2 (F := Ideal) x1 (idx_main_v4 (ix2 r j)) = x1 (ix2 r (mid j)) - x1 (ix2 r (lft j)) := by
  rw [val_main_v2_apply, val_main_v0_apply, val_main_v1_apply, idx_mid_b, idx_lft]
  rfl

/-- The bit the reference computes at interior sample `j + 1` of row `r` is the test for a strict local maximum. -/
private theorem peak_bit (x1 : (⟨S4096x2048, .f32⟩ : BufTy).Contents (Elt Ideal)) (r : Fin 4096) (j : Fin 2046) :
    val_main_v11 (F := Ideal) x1 (ix2 r j) = isPeak x1 r j := by
  rw [val_main_v11_apply, val_main_v7_apply, val_main_v10_apply, val_main_v5_apply, val_main_v3_apply,
    val_main_v4_apply, val_main_v8_apply, val_main_v6_apply, val_main_v9_apply, val_main_cst_apply,
    val_main_cst_0_apply]
  show IntOp.andi (Ideal.cmp .olt (val_main_v2 (F := Ideal) x1 (idx_main_v3 (ix2 r j)) * val_main_v2 (F := Ideal) x1 (idx_main_v4 (ix2 r j))) (Ideal.ofBits .f32 0x00000000#32))
      (Ideal.cmp .ogt (val_main_v2 (F := Ideal) x1 (idx_main_v4 (ix2 r j))) (Ideal.ofBits .f32 0x00000000#32)) = _
  rw [diff_upper, diff_lower, Ideal.ofBits_zero_f32]
  rfl

/-- The mask: the bit converted to a float is its indicator. -/
private theorem mask_val (x1 : (⟨S4096x2048, .f32⟩ : BufTy).Contents (Elt Ideal)) (r : Fin 4096) (j : Fin 2046) :
    val_main_v18 (F := Ideal) x1 (ix2 r j) = ind (isPeak x1 r j) := by
  rw [val_main_v18_apply, peak_bit]
  rfl

/-- The index a row sum reads at coordinate `k` of the summed axis. -/
private theorem idx_row (r : Fin 4096) (k : Fin 2046) : idx_main_v19 (ix1 r) k = ix2 r k :=
  funext fun a => Fin.ext (by
    match a with
    | ⟨0, _⟩ => rfl
    | ⟨1, _⟩ => rfl)

/-- The first row sum is the number of maxima of the row. -/
private theorem count_row (x1 : (⟨S4096x2048, .f32⟩ : BufTy).Contents (Elt Ideal)) (r : Fin 4096) :
    val_main_v19 (F := Ideal) x1 (ix1 r) = cnt x1 r := by
  rw [val_main_v19_apply, val_main_cst_2_apply]
  show Ideal.ofBits .f32 0x00000000#32 + _ = ∑ j : Fin 2046, ind (isPeak x1 r j)
  rw [Ideal.ofBits_zero_f32, zero_add]
  exact Finset.sum_congr rfl (fun k _ => by rw [idx_row, mask_val])

/-- The window slice `[:, 1:2047]` reads sample `j + 1`. -/
private theorem idx_mid_w (r : Fin 4096) (j : Fin 2046) : idx_main_v14 (ix2 r j) = ix2 r (mid j) :=
  funext fun a => Fin.ext (by
    match a with
    | ⟨0, _⟩ => rfl
    | ⟨1, _⟩ => show 1 + j.val = j.val + 1; omega)

/-- The squared distance at interior sample `j + 1`. -/
private theorem sq_val (x0 : (⟨S4096x8192, .f32⟩ : BufTy).Contents (Elt Ideal)) (x1 : (⟨S4096x2048, .f32⟩ : BufTy).Contents (Elt Ideal))
    (r : Fin 4096) (j : Fin 2046) :
    val_main_v17 (F := Ideal) x0 x1 (ix2 r j) = sq (val_main_v13 (F := Ideal) x0) x1 r (mid j) := by
  rw [val_main_v17_apply, val_main_v16_apply, val_main_v14_apply, val_main_v15_apply]
  show (val_main_v13 (F := Ideal) x0 (idx_main_v14 (ix2 r j)) - x1 (idx_main_v14 (ix2 r j)))
      * (val_main_v13 (F := Ideal) x0 (idx_main_v14 (ix2 r j)) - x1 (idx_main_v14 (ix2 r j))) = _
  rw [idx_mid_w]
  rfl

/-- The second row sum is the sum of the squared distances over the row's maxima. -/
private theorem num_row (x0 : (⟨S4096x8192, .f32⟩ : BufTy).Contents (Elt Ideal)) (x1 : (⟨S4096x2048, .f32⟩ : BufTy).Contents (Elt Ideal))
    (r : Fin 4096) :
    val_main_v21 (F := Ideal) x0 x1 (ix1 r) = num (val_main_v13 (F := Ideal) x0) x1 r := by
  rw [val_main_v21_apply, val_main_cst_3_apply]
  show Ideal.ofBits .f32 0x00000000#32 + ∑ k : Fin 2046, val_main_v20 (F := Ideal) x0 x1 (idx_main_v19 (ix1 r) k)
    = ∑ j : Fin 2046, sq (val_main_v13 (F := Ideal) x0) x1 r (mid j) * ind (isPeak x1 r j)
  rw [Ideal.ofBits_zero_f32, zero_add]
  refine Finset.sum_congr rfl (fun k _ => ?_)
  rw [idx_row, val_main_v20_apply, sq_val, mask_val]
  rfl

/-- Whether the row has a maximum. -/
private theorem valid_row (x1 : (⟨S4096x2048, .f32⟩ : BufTy).Contents (Elt Ideal)) (r : Fin 4096) :
    val_main_v26 (F := Ideal) x1 (ix1 r) = valid x1 r := by
  rw [val_main_v26_apply, count_row, val_main_v25_apply, val_main_cst_5_apply]
  show Ideal.cmp .ogt (cnt x1 r) (Ideal.ofBits .f32 0x00000000#32) = Ideal.cmp .ogt (cnt x1 r) 0
  rw [Ideal.ofBits_zero_f32]

/-- The row's loss. -/
private theorem loss_row (x0 : (⟨S4096x8192, .f32⟩ : BufTy).Contents (Elt Ideal)) (x1 : (⟨S4096x2048, .f32⟩ : BufTy).Contents (Elt Ideal))
    (r : Fin 4096) :
    val_main_v27 (F := Ideal) x0 x1 (ix1 r) = rowLoss (val_main_v13 (F := Ideal) x0) x1 r := by
  rw [val_main_v27_apply, valid_row, val_main_v24_apply, num_row, val_main_v23_apply, count_row, val_main_v22_apply,
    val_main_cst_4_apply, val_main_call0_v1_apply, val_main_call0_v0_apply, val_main_cst_6_apply]
  show Scalar.select (valid x1 r) (Ideal.div (num (val_main_v13 (F := Ideal) x0) x1 r) (max (cnt x1 r) (Ideal.ofBits .f32 0x3F800000#32)))
      (Ideal.ofBits .f32 0x00000000#32) = _
  rw [Ideal.ofBits_zero_f32]
  rfl

/-- The sum of the row losses. -/
private theorem total_val (x0 : (⟨S4096x8192, .f32⟩ : BufTy).Contents (Elt Ideal)) (x1 : (⟨S4096x2048, .f32⟩ : BufTy).Contents (Elt Ideal))
    (i : S_.Idx) :
    val_main_v28 (F := Ideal) x0 x1 i = total (val_main_v13 (F := Ideal) x0) x1 := by
  rw [val_main_v28_apply, val_main_cst_7_apply]
  show Ideal.ofBits .f32 0x00000000#32 + _ = ∑ r : Fin 4096, rowLoss (val_main_v13 (F := Ideal) x0) x1 r
  rw [Ideal.ofBits_zero_f32, zero_add]
  rw [← Equiv.sum_comp (idxEquiv1 (n := 4096)).symm]
  exact Finset.sum_congr rfl (fun r _ => loss_row x0 x1 r)

/-- The integer count of the rows with a maximum, converted to a float, is the sum of their indicators: every row index
    drops to the one rank-0 index, so the fold runs over all rows, and the 32-bit sum of 4096 bits does not wrap. -/
private theorem nvalid_val (x1 : (⟨S4096x2048, .f32⟩ : BufTy).Contents (Elt Ideal)) (i : S_.Idx) :
    val_main_v31 (F := Ideal) x1 i = nvalid x1 := by
  rw [val_main_v31_apply]
  show (((val_main_v30 (F := Ideal) x1 i).toInt : ℝ) : EReal) = ∑ r : Fin 4096, ind (valid x1 r)
  unfold val_main_v30
  rw [Host.reduce_eq_fold IntOp.addi _ _ reducesTo_S4096_S_d0 h_S_ i]
  have hall : (Finset.univ.filter fun i' : S4096.Idx => reducesTo_S4096_S_d0.drop i' = i) = Finset.univ :=
    Finset.filter_true_of_mem (fun i' _ => funext fun b => b.elim0)
  rw [hall, ← Finset.map_univ_equiv (idxEquiv1 (n := 4096)).symm, Finset.fold_map]
  have hf : (val_main_v29 (F := Ideal) x1 ∘ ⇑(idxEquiv1 (n := 4096)).symm.toEmbedding)
      = fun r : Fin 4096 => (valid x1 r).setWidth 32 := by
    funext r
    show val_main_v29 (F := Ideal) x1 (ix1 r) = _
    rw [val_main_v29_apply, valid_row]
  rw [hf]
  exact count_toInt (fun r => valid x1 r)

/-- The reference's result, as a function of its two arguments, is the loss of the prediction's window maxima
    (its own max-reduce of the reshaped prediction, left unopened) and the target. -/
theorem result_eq_loss (x0 : (⟨S4096x8192, .f32⟩ : BufTy).Contents (Elt Ideal)) (x1 : (⟨S4096x2048, .f32⟩ : BufTy).Contents (Elt Ideal)) :
    val_main_v35 (F := Ideal) x0 x1 = fun _ => loss (val_main_v13 (F := Ideal) x0) x1 := by
  funext i
  rw [val_main_v35_apply, val_main_v32_apply, val_main_v34_apply, val_main_v33_apply, total_val, nvalid_val,
    val_main_cst_8_apply, val_main_cst_9_apply, val_main_cst_10_apply]
  show Scalar.select (Ideal.cmp .ogt (nvalid x1) (Ideal.ofBits .f32 0x00000000#32))
      (Ideal.div (total (val_main_v13 (F := Ideal) x0) x1) (max (nvalid x1) (Ideal.ofBits .f32 0x3F800000#32)))
      (Ideal.ofBits .f32 0x00000000#32) = _
  rw [Ideal.ofBits_zero_f32]
  rfl

end Cert.ReferenceIdeal.RefValue

end
-- ==== Proof.KernelPieces.lean ====
/-
  What each control case of the kernel's body leaves in the two accumulators it carries from one grid point to the
  next, and in the output block, as values.  The body loads the block of window maxima `x0` and the block of target
  rows `x1`; at the first point it clears both accumulators before adding to them; at every point it adds the tile's
  sum of row losses to the first accumulator and the tile's count of rows with a maximum to the second; at the last
  point it also stores the quotient of the two, or zero when the count is zero, into the output block.
-/
import proofs.«408400_j1391569404168_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The tile's sum of row losses added to an accumulator's contents `a`, and the tile's count of rows with a
    maximum added to `a`. -/
abbrev addLoss (x0 x1 : Vec F S128x2048 .f32) (a : Vec F S1x1 .f32) : Vec F S1x1 .f32 := k0_pay1 (k0_pay9 x1 x0) a
abbrev addCount (x1 : Vec F S128x2048 .f32) (a : Vec F S1x1 .f32) : Vec F S1x1 .f32 := k0_pay2 (k0_pay8 x1) a

/-- First point: the loss accumulator is cleared, read back, and the tile's sum added. -/
theorem scr0_A (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 x1 : Vec F S128x2048 .f32) :
    sout0_A_0 c i arg1 harg1 arg2 harg2 arg3 harg3 arg4 harg4 arg5 harg5 hc0 hc1 x0 x1 = addLoss x0 x1 (k0_pay4 (F := F)) := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, harg4.read_unread, harg5.read_unread, View.ld_unit_zero (S := S128x2048) hz, View.ld_unit_zero (S := S1x1) hz]

/-- First point: the count accumulator likewise. -/
theorem scr1_A (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 x1 : Vec F S128x2048 .f32) :
    sout0_A_1 c i arg1 harg1 arg2 harg2 arg3 harg3 arg4 harg4 arg5 harg5 hc0 hc1 x0 x1 = addCount x1 (k0_pay5 (F := F)) := by
  unfold sout0_A_1
  rw [View.read_writes_eq_canon _ _ _ (scover0_A_1 c i arg1 harg1 arg2 harg2 arg3 harg3 arg4 harg4 arg5 harg5 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, harg4.read_unread, harg5.read_unread, View.ld_unit_zero (S := S128x2048) hz, View.ld_unit_zero (S := S1x1) hz]

/-- A middle point: the tile's sum is added to what the point before left. -/
theorem scr0_B (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S128x2048 .f32) (xs0 xs1 : Vec F S1x1 .f32) :
    sout0_B_0 c i arg1 harg1 arg2 harg2 arg3 harg3 arg4 harg4 arg5 harg5 hc0 hc1 x0 x1 xs0 xs1 = addLoss x0 x1 xs0 := by
  unfold sout0_B_0
  rw [View.read_writes_eq_canon _ _ _ (scover0_B_0 c i arg1 harg1 arg2 harg2 arg3 harg3 arg4 harg4 arg5 harg5 hc0 hc1 x0 x1 xs0 xs1)]
  unfold kernelRun0_B
  dsimp only
  sl_unfold_words
  rw [View.canon_unit_zero hz]
  simp only [View.readAt_eq_ld, harg1.read_unread, harg2.read_unread, harg4.read_unread, harg5.read_unread, View.ld_unit_zero (S := S128x2048) hz, View.ld_unit_zero (S := S1x1) hz]

theorem scr1_B (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S128x2048 .f32) (xs0 xs1 : Vec F S1x1 .f32) :
    sout0_B_1 c i arg1 harg1 arg2 harg2 arg3 harg3 arg4 harg4 arg5 harg5 hc0 hc1 x0 x1 xs0 xs1 = addCount x1 xs1 := by
  unfold sout0_B_1
  rw [View.read_writes_eq_canon _ _ _ (scover0_B_1 c i arg1 harg1 arg2 harg2 arg3 harg3 arg4 harg4 arg5 harg5 hc0 hc1 x0 x1 xs0 xs1)]
  unfold kernelRun0_B
  dsimp only
  sl_unfold_words
  rw [View.canon_unit_zero hz]
  simp only [View.readAt_eq_ld, harg1.read_unread, harg2.read_unread, harg4.read_unread, harg5.read_unread, View.ld_unit_zero (S := S128x2048) hz, View.ld_unit_zero (S := S1x1) hz]

/-- The last point: the accumulators as at a middle point, -/
theorem scr0_C (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S128x2048 .f32) (xs0 xs1 : Vec F S1x1 .f32) :
    sout0_C_0 c i arg1 harg1 arg2 harg2 arg3 harg3 arg4 harg4 arg5 harg5 hc0 hc1 x0 x1 xs0 xs1 = addLoss x0 x1 xs0 := by
  unfold sout0_C_0
  rw [View.read_writes_eq_canon _ _ _ (scover0_C_0 c i arg1 harg1 arg2 harg2 arg3 harg3 arg4 harg4 arg5 harg5 hc0 hc1 x0 x1 xs0 xs1)]
  unfold kernelRun0_C
  dsimp only
  sl_unfold_words
  rw [View.canon_unit_zero hz]
  simp only [View.readAt_eq_ld, harg1.read_unread, harg2.read_unread, harg4.read_unread, harg5.read_unread, View.ld_unit_zero (S := S128x2048) hz, View.ld_unit_zero (S := S1x1) hz]

theorem scr1_C (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S128x2048 .f32) (xs0 xs1 : Vec F S1x1 .f32) :
    sout0_C_1 c i arg1 harg1 arg2 harg2 arg3 harg3 arg4 harg4 arg5 harg5 hc0 hc1 x0 x1 xs0 xs1 = addCount x1 xs1 := by
  unfold sout0_C_1
  rw [View.read_writes_eq_canon _ _ _ (scover0_C_1 c i arg1 harg1 arg2 harg2 arg3 harg3 arg4 harg4 arg5 harg5 hc0 hc1 x0 x1 xs0 xs1)]
  unfold kernelRun0_C
  dsimp only
  sl_unfold_words
  rw [View.canon_unit_zero hz]
  simp only [View.readAt_eq_ld, harg1.read_unread, harg2.read_unread, harg4.read_unread, harg5.read_unread, View.ld_unit_zero (S := S128x2048) hz, View.ld_unit_zero (S := S1x1) hz]

/-- and the output block holds the final quotient of the two accumulators just updated. -/
theorem out_C (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S128x2048 .f32) (xs0 xs1 : Vec F S1x1 .f32) :
    out0_C_2 c i arg1 harg1 arg2 harg2 arg3 harg3 arg4 harg4 arg5 harg5 hc0 hc1 x0 x1 xs0 xs1 = k0_pay3 (addLoss x0 x1 xs0) (addCount x1 xs1) := by
  unfold out0_C_2
  rw [View.read_writes_eq_canon _ _ _ (cover0_C_2 c i arg1 harg1 arg2 harg2 arg3 harg3 arg4 harg4 arg5 harg5 hc0 hc1 x0 x1 xs0 xs1)]
  unfold kernelRun0_C
  dsimp only
  sl_unfold_words
  rw [View.canon_unit_zero hz]
  simp only [View.readCov_unit_zero (S := S1x1) _ hz, View.readAt_eq_ld, harg1.read_unread, harg2.read_unread, harg4.read_unread, harg5.read_unread, View.ld_unit_zero (S := S128x2048) hz, View.ld_unit_zero (S := S1x1) hz]

end Cert.KernelIdeal.Pieces

end
-- ==== Proof.KernelArith.lean ====
/-
  The kernel body's arithmetic, read at an index over the extended reals.

  A block of 128 target rows `x1` and the block of their window maxima `x0` are rows `row t p` of the whole arrays
  `y` and `w` (the hypotheses `hx1`, `hx0`).  Lane `q` of row `p` of the mask is the indicator of `laneBit`: the two
  rotations bring the cyclic neighbours, the lane number clears the boundary lanes.  A row's two lane sums are then
  its count of maxima and its sum of squared distances, the guarded quotient its loss; the two column sums over the
  128 rows are the tile's contributions to the accumulators; the last payload is the final guarded quotient.
-/
import proofs.«408400_j1391569404168_3_alg».proof.Proof.Gen.KernelIdeal.Skeleton
import proofs.«408400_j1391569404168_3_alg».proof.Proof.Spec
import proofs.«408400_j1391569404168_3_alg».proof.Proof.Sums
import Idealize.ShloMosaic.PureOps.Ideal.Laws
import Idealize.ShloMosaic.Lib.ValueIdx
import Idealize.ShloMosaic.Lib.Pipeline.Value
import Idealize.ShloMosaic.Lib.KernelVsHost

noncomputable section

namespace Cert.KernelIdeal.Arith

open Cert.KernelIdeal Cert.KernelIdeal.Gen Cert.MaximaLoss
open Idealize.ShloMosaic Idealize.ShloMosaic.ValueIdx

/-- The one index of a [1,1] block. -/
abbrev o : S1x1.Idx := ix2 (0 : Fin 1) (0 : Fin 1)

theorem eq_o (i : S1x1.Idx) : i = o := by
  have h0 : (i 0).val < 1 := idx2_lt0 i
  have h1 : (i 1).val < 1 := idx2_lt1 i
  funext a
  match a with
  | ⟨0, _⟩ => exact Fin.ext (by show (i 0).val = 0; omega)
  | ⟨1, _⟩ => exact Fin.ext (by show (i 1).val = 0; omega)

/-- The rotation by 2047 lanes brings the next lane, around the end of the row. -/
private theorem rot_nxt (x : Vec Ideal S128x2048 .f32) (p : Fin 128) (q : Fin 2048) :
    dynamicRotate 1 2047#32 none x rotates_S128x2048_d1 (ix2 p q) = x (ix2 p (nxt q)) :=
  dynamicRotate_apply 1 2047#32 x rotates_S128x2048_d1 (ix2 p q) (ix2 p (nxt q)) (fun b => by
    match b with
    | ⟨0, _⟩ => rfl
    | ⟨1, _⟩ =>
      show (q.val + 1) % 2048 = (q.val + 2048 - 2047 % 2048) % 2048
      omega)

/-- The rotation by one lane brings the lane before, around the end of the row. -/
private theorem rot_prv (x : Vec Ideal S128x2048 .f32) (p : Fin 128) (q : Fin 2048) :
    dynamicRotate 1 1#32 none x rotates_S128x2048_d1 (ix2 p q) = x (ix2 p (prv q)) :=
  dynamicRotate_apply 1 1#32 x rotates_S128x2048_d1 (ix2 p q) (ix2 p (prv q)) (fun b => by
    match b with
    | ⟨0, _⟩ => rfl
    | ⟨1, _⟩ =>
      show (q.val + 2047) % 2048 = (q.val + 2048 - 1 % 2048) % 2048
      omega)

/-- A row's lane sum: the reduction over the lanes, viewed as a column, read at row `p`. -/
private theorem rowSum_apply (v : FVec Ideal S128x2048 .f32) (hφ : FKind.Formats .f32)
    (hacc : (0x00000000#32 : BitVec 32) = FKind.add.neutral .f32 hφ) (p : Fin 128) :
    shapeCast S128x1 (multiReduction .add [1] S128 v 0x00000000#32 reduces_S128x2048_S128 hφ hacc)
        shapeCasts_S128_S128x1 (ix2 p (0 : Fin 1))
      = ∑ q : Fin 2048, v (ix2 p q) := by
  refine (shapeCast_apply _ shapeCasts_S128_S128x1 (ix2 p (0 : Fin 1)) (ix1 p) ?_).trans ?_
  · rw [Shape.rowMajor_val_one, Shape.rowMajor_val_two]
    show p.val = p.val * 1 + 0
    omega
  · refine (Ideal.multiReduction_add_single v _ reduces_S128x2048_S128 hφ hacc (ix1 p)).trans ?_
    refine Finset.sum_congr rfl (fun k _ => ?_)
    congr 1
    funext a
    exact Fin.ext (by match a with | ⟨0, _⟩ => rfl | ⟨1, _⟩ => rfl)

/-- A column's sum over the 128 rows: the reduction over the rows, viewed as a [1,1] block, read at its one index. -/
private theorem colSum_apply (v : FVec Ideal S128x1 .f32) (hφ : FKind.Formats .f32)
    (hacc : (0x00000000#32 : BitVec 32) = FKind.add.neutral .f32 hφ) :
    shapeCast S1x1 (multiReduction .add [0] S1 v 0x00000000#32 reduces_S128x1_S1 hφ hacc)
        shapeCasts_S1_S1x1 o
      = ∑ p : Fin 128, v (ix2 p (0 : Fin 1)) := by
  refine (shapeCast_apply _ shapeCasts_S1_S1x1 o (ix1 (0 : Fin 1)) ?_).trans ?_
  · rw [Shape.rowMajor_val_one, Shape.rowMajor_val_two]
    rfl
  · refine (Ideal.multiReduction_add_single v _ reduces_S128x1_S1 hφ hacc (ix1 (0 : Fin 1))).trans ?_
    refine Finset.sum_congr rfl (fun k _ => ?_)
    congr 1
    funext a
    exact Fin.ext (by match a with | ⟨0, _⟩ => rfl | ⟨1, _⟩ => rfl)

/-- A guarded quotient changes with its guard, its numerator and its count. -/
private theorem select_div_max_congr {c c' : BitVec 1} {n n' d d' e z : EReal}
    (hc : c = c') (hn : n = n') (hd : d = d') :
    Scalar.select c (Ideal.div n (max d e)) z = Scalar.select c' (Ideal.div n' (max d' e)) z := by
  rw [hc, hn, hd]

section Tile
variable (w y : Arr) (t : Fin 32) (x0 x1 : Vec Ideal S128x2048 .f32)
variable (hx0 : ∀ (p : Fin 128) (q : Fin 2048), x0 (ix2 p q) = w (ix2 (row t p) q))
variable (hx1 : ∀ (p : Fin 128) (q : Fin 2048), x1 (ix2 p q) = y (ix2 (row t p) q))
include hx1

/-- The mask as a float, lane by lane. -/
theorem pay6_apply (p : Fin 128) (q : Fin 2048) :
    k0_pay6 (F := Ideal) x1 (ix2 p q) = ind (laneBit y (row t p) q) := by
  have hn := rot_nxt x1 p q
  have hp := rot_prv x1 p q
  have hi : iota .tc S128x2048 32 [1] iota_S128x2048_d1_w32 (ix2 p q) = BitVec.ofNat 32 q.val :=
    iota_single_apply .tc S128x2048 32 1 iota_S128x2048_d1_w32 (ix2 p q)
  show ((((IntOp.andi
      (IntOp.andi
        (FloatOps.cmpf .olt
          ((dynamicRotate 1 2047#32 none x1 rotates_S128x2048_d1 (ix2 p q) - x1 (ix2 p q))
            * (x1 (ix2 p q) - dynamicRotate 1 1#32 none x1 rotates_S128x2048_d1 (ix2 p q)))
          (Ideal.ofBits .f32 0x00000000#32))
        (FloatOps.cmpf .ogt (x1 (ix2 p q) - dynamicRotate 1 1#32 none x1 rotates_S128x2048_d1 (ix2 p q))
          (Ideal.ofBits .f32 0x00000000#32)))
      (IntOp.xori
        (IntOp.ori (IntOp.cmpi .eq (iota .tc S128x2048 32 [1] iota_S128x2048_d1_w32 (ix2 p q)) 0#32)
          (IntOp.cmpi .eq (iota .tc S128x2048 32 [1] iota_S128x2048_d1_w32 (ix2 p q)) 2047#32))
        1#1)).setWidth 32).toInt : ℝ) : EReal) = _
  rw [Cert.MaximaLoss.toInt_setWidth_bit, hn, hp, hi, Ideal.ofBits_zero_f32, Ideal.cmpf_def, Ideal.cmpf_def]
  simp only [hx1]
  rfl

/-- A row's count of maxima. -/
theorem pay7_apply (p : Fin 128) :
    k0_pay7 (F := Ideal) x1 (ix2 p (0 : Fin 1)) = cnt y (row t p) := by
  refine (rowSum_apply (k0_pay6 (F := Ideal) x1) _ _ p).trans ?_
  rw [← sum_laneBit y (row t p)]
  exact Finset.sum_congr rfl (fun q _ => pay6_apply y t x1 hx1 p q)

/-- Whether a row has a maximum. -/
theorem pay8_apply (p : Fin 128) :
    k0_pay8 (F := Ideal) x1 (ix2 p (0 : Fin 1)) = valid y (row t p) := by
  show FloatOps.cmpf .ogt (k0_pay7 (F := Ideal) x1 (ix2 p (0 : Fin 1))) (Ideal.ofBits .f32 0x00000000#32) = _
  rw [pay7_apply y t x1 hx1 p, Ideal.ofBits_zero_f32, Ideal.cmpf_def]
  rfl

/-- The tile's count of rows with a maximum, added to `a`. -/
theorem addCount_apply (a : Vec Ideal S1x1 .f32) :
    k0_pay2 (F := Ideal) (k0_pay8 x1) a o = a o + ∑ p : Fin 128, ind (valid y (row t p)) := by
  show shapeCast S1x1 (addf (F := Ideal) (φ := .f32) a (shapeCast S1x1
      (multiReduction .add [0] S1 (sitofp .f32 (extui 32 (k0_pay8 (F := Ideal) x1) natLt_1_32)) 0x00000000#32
        reduces_S128x1_S1 _ _)
      shapeCasts_S1_S1x1)) shapeCasts_S1x1_S1x1 o = _
  rw [shapeCast_self, addf_apply]
  refine congrArg (fun z => a o + z) ?_
  refine (colSum_apply _ _ _).trans ?_
  refine Finset.sum_congr rfl (fun p _ => ?_)
  show ((((k0_pay8 (F := Ideal) x1 (ix2 p (0 : Fin 1))).setWidth 32).toInt : ℝ) : EReal) = _
  rw [Cert.MaximaLoss.toInt_setWidth_bit, pay8_apply y t x1 hx1 p]

include hx0

/-- A row's loss. -/
theorem pay9_apply (p : Fin 128) :
    k0_pay9 (F := Ideal) x1 x0 (ix2 p (0 : Fin 1)) = rowLoss w y (row t p) := by
  show Scalar.select (k0_pay8 (F := Ideal) x1 (ix2 p (0 : Fin 1)))
      (Ideal.div
        (shapeCast S128x1 (multiReduction .add [1] S128
            (mulf (mulf (subf (shapeCast S128x2048 x0 shapeCasts_S128x2048_S128x2048) x1)
                        (subf (shapeCast S128x2048 x0 shapeCasts_S128x2048_S128x2048) x1))
                  (k0_pay6 (F := Ideal) x1))
            0x00000000#32 reduces_S128x2048_S128 _ _) shapeCasts_S128_S128x1 (ix2 p (0 : Fin 1)))
        (max (k0_pay7 (F := Ideal) x1 (ix2 p (0 : Fin 1))) (Ideal.ofBits .f32 0x3F800000#32)))
      (Ideal.ofBits .f32 0x00000000#32) = _
  refine (select_div_max_congr (n' := num w y (row t p)) (pay8_apply y t x1 hx1 p) ?_
    (pay7_apply y t x1 hx1 p)).trans ?_
  · refine (rowSum_apply _ _ _ p).trans ?_
    rw [← sum_sq_laneBit w y (row t p)]
    refine Finset.sum_congr rfl (fun q _ => ?_)
    show (shapeCast S128x2048 x0 shapeCasts_S128x2048_S128x2048 (ix2 p q) - x1 (ix2 p q))
        * (shapeCast S128x2048 x0 shapeCasts_S128x2048_S128x2048 (ix2 p q) - x1 (ix2 p q))
        * k0_pay6 (F := Ideal) x1 (ix2 p q) = _
    rw [shapeCast_self, pay6_apply y t x1 hx1 p q, hx0, hx1]
    rfl
  · rw [Ideal.ofBits_zero_f32]
    rfl

/-- The tile's sum of row losses, added to `a`. -/
theorem addLoss_apply (a : Vec Ideal S1x1 .f32) :
    k0_pay1 (F := Ideal) (k0_pay9 x1 x0) a o = a o + ∑ p : Fin 128, rowLoss w y (row t p) := by
  show shapeCast S1x1 (addf (F := Ideal) (φ := .f32) a (shapeCast S1x1
      (multiReduction .add [0] S1 (k0_pay9 (F := Ideal) x1 x0) 0x00000000#32 reduces_S128x1_S1 _ _)
      shapeCasts_S1_S1x1)) shapeCasts_S1x1_S1x1 o = _
  rw [shapeCast_self, addf_apply]
  refine congrArg (fun z => a o + z) ?_
  refine (colSum_apply _ _ _).trans ?_
  exact Finset.sum_congr rfl (fun p _ => pay9_apply w y t x0 x1 hx0 hx1 p)

end Tile

/-- The two cleared accumulators hold zero. -/
theorem pay4_apply : k0_pay4 (F := Ideal) o = 0 := by
  show shapeCast S1x1 (broadcast S1x1 (Ideal.ofBits .f32 0x00000000#32)) shapeCasts_S1x1_S1x1 o = 0
  rw [shapeCast_self]
  exact Ideal.ofBits_zero_f32

theorem pay5_apply : k0_pay5 (F := Ideal) o = 0 := by
  show shapeCast S1x1 (broadcast S1x1 (Ideal.ofBits .f32 0x00000000#32)) shapeCasts_S1x1_S1x1 o = 0
  rw [shapeCast_self]
  exact Ideal.ofBits_zero_f32

/-- The final guarded quotient of the loss accumulator `u` by the count accumulator `v`. -/
theorem pay3_apply (u v : Vec Ideal S1x1 .f32) :
    k0_pay3 (F := Ideal) u v o
      = Scalar.select (Ideal.cmp .ogt (v o) 0) (Ideal.div (u o) (max (v o) one)) 0 := by
  show Scalar.select (FloatOps.cmpf .ogt (v o) (Ideal.ofBits .f32 0x00000000#32))
      (Ideal.div (u o) (max (v o) (Ideal.ofBits .f32 0x3F800000#32))) (Ideal.ofBits .f32 0x00000000#32) = _
  rw [Ideal.ofBits_zero_f32, Ideal.cmpf_def]
  rfl

end Cert.KernelIdeal.Arith

end
-- ==== Proof.KernelBlocks.lean ====
/-
  The two blocks a grid point loads are rows of the whole arrays: grid point `t` loads block row `t` of the target
  and of the array of window maxima, so row `p` of a block is row `128 t + p` of its array; and the array of window
  maxima, which the host computes before the region, is the max-reduce of the reshaped prediction.
-/
import proofs.«408400_j1391569404168_3_alg».proof.Proof.Gen.KernelIdeal.Frame
import proofs.«408400_j1391569404168_3_alg».proof.Proof.KernelPieces
import proofs.«408400_j1391569404168_3_alg».proof.Proof.KernelArith
import proofs.«408400_j1391569404168_3_alg».proof.Proof.Spec
import proofs.«408400_j1391569404168_3_alg».proof.Proof.Sums
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Cert.MaximaLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The target array and the array of window maxima, as the region finds them. -/
abbrev yarr (c : Dev nD) : Arr := V m c main_arg1
abbrev warr (c : Dev nD) : Arr := V m c main_v1

/-- The blocks of the two arrays that grid point `t` loads. -/
abbrev wblk (c : Dev nD) (t : Fin cfg0.N) : Vec Ideal S128x2048 .f32 := iblk m c 0 t
abbrev yblk (c : Dev nD) (t : Fin cfg0.N) : Vec Ideal S128x2048 .f32 := iblk m c 1 t

/-- Grid point `t` loads block row `t`, block column `0`, of both arrays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A grid point as a tile number. -/
def tile (t : Fin cfg0.N) : Fin 32 := ⟨t.val, lt_of_lt_of_eq t.isLt N_0⟩

/-- Window 0 and window 1 read through any [4096, 2048] array `A`: row `p`, lane `q` of the block at point `t` is
    row `128 t + p`, lane `q` of `A`.  Stated over an abstract array so that the arrays' own terms are never opened. -/
theorem read_blk0 (A : S4096x2048.Idx → EReal) (t : Fin cfg0.N) (p : Fin 128) (q : Fin 2048) :
    ((cfg0.win 0).blk t).view.read (Elt Ideal) A (ix2 p q) = A (ix2 (row (tile t) p) q) := by
  show A (((cfg0.win 0).blk t).view.emb (ix2 p q)) = A (ix2 (row (tile t) p) q)
  refine congrArg A ?_
  funext a
  apply Fin.ext
  match a with
  | ⟨0, h0⟩ =>
    show win0_0.index t 0 * 128 + 1 * p.val = _
    rw [(idx_facts t).1]
    have e : (ix2 (row (tile t) p) q ⟨0, h0⟩).val = 128 * t.val + p.val := rfl
    rw [e]
    clear e h0
    omega
  | ⟨1, h1⟩ =>
    show win0_0.index t 1 * 2048 + 1 * q.val = _
    rw [(idx_facts t).2.1]
    have e : (ix2 (row (tile t) p) q ⟨1, h1⟩).val = q.val := rfl
    rw [e]
    clear e h1
    omega

theorem read_blk1 (A : S4096x2048.Idx → EReal) (t : Fin cfg0.N) (p : Fin 128) (q : Fin 2048) :
    ((cfg0.win 1).blk t).view.read (Elt Ideal) A (ix2 p q) = A (ix2 (row (tile t) p) q) := by
  show A (((cfg0.win 1).blk t).view.emb (ix2 p q)) = A (ix2 (row (tile t) p) q)
  refine congrArg A ?_
  funext a
  apply Fin.ext
  match a with
  | ⟨0, h0⟩ =>
    show win0_1.index t 0 * 128 + 1 * p.val = _
    rw [(idx_facts t).2.2.1]
    have e : (ix2 (row (tile t) p) q ⟨0, h0⟩).val = 128 * t.val + p.val := rfl
    rw [e]
    clear e h0
    omega
  | ⟨1, h1⟩ =>
    show win0_1.index t 1 * 2048 + 1 * q.val = _
    rw [(idx_facts t).2.2.2]
    have e : (ix2 (row (tile t) p) q ⟨1, h1⟩).val = q.val := rfl
    rw [e]
    clear e h1
    omega

/-- Row `p`, lane `q` of the block of targets at point `t` is row `128 t + p`, lane `q` of the array; the same for
    the block of window maxima. -/
theorem yblk_apply (c : Dev nD) (t : Fin cfg0.N) (p : Fin 128) (q : Fin 2048) :
    yblk m c t (ix2 p q) = yarr m c (ix2 (row (tile t) p) q) := by
  show iblk m c 1 t (ix2 p q) = V m c main_arg1 (ix2 (row (tile t) p) q)
  unfold iblk
  exact read_blk1 (V m c main_arg1) t p q

theorem wblk_apply (c : Dev nD) (t : Fin cfg0.N) (p : Fin 128) (q : Fin 2048) :
    wblk m c t (ix2 p q) = warr m c (ix2 (row (tile t) p) q) := by
  show iblk m c 0 t (ix2 p q) = V m c main_v1 (ix2 (row (tile t) p) q)
  unfold iblk
  exact read_blk0 (V m c main_v1) t p q

/-- The array of window maxima is the host's max-reduce over the last axis of the prediction reshaped
    [4096, 2048, 4], from the initial value `-inf`. -/
theorem warr_eq (c : Dev nD) :
    (V m c main_v1 : S4096x2048.Idx → EReal)
      = Host.reduce FloatOps.maximumf (shapeCast S4096x2048x4 (m ((c : Thread nD τ).loc main_arg0)) shapeCasts_S4096x8192_S4096x2048x4)
          (constant (F := Ideal) S_ .f32 0xFF800000#32) reducesTo_S4096x2048x4_S4096x2048_d2 h_S_ := by
  show StableHlo.after hostOps0 (fun b => m (c, b)) (Proc.devRef .tc main_v1) = _
  after_results
  rfl

end Cert.KernelIdeal.KValue

end
-- ==== Proof.KernelAcc.lean ====
/-
  The kernel's accumulators, point by point: after grid point `n` the two carried accumulators hold the sum of the
  row losses and the number of rows with a maximum over the tiles `0 … n`; the last point stores their guarded
  quotient, which over all 32 tiles is the loss of the specification.
-/
import proofs.«408400_j1391569404168_3_alg».proof.Proof.Gen.KernelIdeal.Frame
import proofs.«408400_j1391569404168_3_alg».proof.Proof.KernelPieces
import proofs.«408400_j1391569404168_3_alg».proof.Proof.KernelArith
import proofs.«408400_j1391569404168_3_alg».proof.Proof.Spec
import proofs.«408400_j1391569404168_3_alg».proof.Proof.Sums
import proofs.«408400_j1391569404168_3_alg».proof.Proof.KernelBlocks
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Cert.MaximaLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The accumulators after each grid point -/

/-- The sum of the row losses, and the number of rows with a maximum, over the tiles `0 … n`. -/
def accL (c : Dev nD) (n : ℕ) : EReal := ∑ t ∈ upto n, ∑ p : Fin 128, rowLoss (warr m c) (yarr m c) (row t p)
def accC (c : Dev nD) (n : ℕ) : EReal := ∑ t ∈ upto n, ∑ p : Fin 128, ind (valid (yarr m c) (row t p))

/-- One point's update of the loss accumulator holding `a`: the tile's sum of row losses is added. -/
theorem addLoss_blk (c : Dev nD) (t : Fin cfg0.N) (a : Vec Ideal S1x1 .f32) :
    Pieces.addLoss (wblk m c t) (yblk m c t) a
      = fun _ => a Arith.o + ∑ p : Fin 128, rowLoss (warr m c) (yarr m c) (row (tile t) p) := by
  funext i
  rw [Arith.eq_o i]
  exact Arith.addLoss_apply (warr m c) (yarr m c) (tile t) (wblk m c t) (yblk m c t) (wblk_apply m c t) (yblk_apply m c t) a

/-- One point's update of the count accumulator holding `a`: the tile's number of rows with a maximum is added. -/
theorem addCount_blk (c : Dev nD) (t : Fin cfg0.N) (a : Vec Ideal S1x1 .f32) :
    Pieces.addCount (yblk m c t) a
      = fun _ => a Arith.o + ∑ p : Fin 128, ind (valid (yarr m c) (row (tile t) p)) := by
  funext i
  rw [Arith.eq_o i]
  exact Arith.addCount_apply (yarr m c) (tile t) (yblk m c t) (yblk_apply m c t) a

/-- The update at a point after the first, over accumulators that hold the sums up to the point before. -/
theorem step_eq (c : Dev nD) (n : ℕ) (h : n + 1 < cfg0.N) (a0 a1 : Vec Ideal S1x1 .f32)
    (e0 : a0 = fun _ => accL m c n) (e1 : a1 = fun _ => accC m c n) :
    Pieces.addLoss (wblk m c ⟨n + 1, h⟩) (yblk m c ⟨n + 1, h⟩) a0 = (fun _ => accL m c (n + 1))
    ∧ Pieces.addCount (yblk m c ⟨n + 1, h⟩) a1 = (fun _ => accC m c (n + 1)) := by
  have hn : n + 1 < 32 := lt_of_lt_of_eq h N_0
  have ht : tile ⟨n + 1, h⟩ = ⟨n + 1, hn⟩ := rfl
  subst e0 e1
  rw [addLoss_blk, addCount_blk, ht]
  unfold accL accC
  rw [sum_upto_succ _ n hn, sum_upto_succ _ n hn]
  exact ⟨rfl, rfl⟩

/-- A point after the first is not the first of its period. -/
private theorem succ_mod_ne_zero (n : ℕ) (hn : n + 1 < 32) : ¬(n + 1) % 32 = 0 := by omega

/-- Over all 32 tiles the two sums are the total of the row losses and the number of rows with a maximum. -/
theorem accL_last (c : Dev nD) : accL m c 31 = total (warr m c) (yarr m c) := by
  unfold accL total
  generalize warr m c = w
  generalize yarr m c = y
  rw [sum_upto_last]
  exact sum_tiles (fun r => rowLoss w y r)

theorem accC_last (c : Dev nD) : accC m c 31 = nvalid (yarr m c) := by
  unfold accC nvalid
  generalize yarr m c = y
  rw [sum_upto_last]
  exact sum_tiles (fun r => ind (valid y r))

/-- The final guarded quotient of the total by the number of rows with a maximum is the loss. -/
theorem pay3_loss (w y : Arr) :
    k0_pay3 (F := Ideal) (fun _ => total w y) (fun _ => nvalid y) = fun _ => loss w y := by
  funext i
  rw [Arith.eq_o i, Arith.pay3_apply]
  rfl

/-- After point `n` the two accumulators hold the sums over the tiles `0 … n`: by induction on the point. -/
theorem acc_eq (c : Dev nD) : ∀ (n : ℕ) (h : n < cfg0.N),
    (outsAt0 m c n h).2.1 = (fun _ => accL m c n) ∧ (outsAt0 m c n h).2.2 = (fun _ => accC m c n) := by
  intro n
  induction n with
  | zero =>
    intro h
    have ht : tile ⟨0, h⟩ = ⟨0, by omega⟩ := rfl
    rw [outsAt0_A m c ⟨0, h⟩ rfl (by show ¬0 % 32 = 31; decide)]
    dsimp only
    rw [Pieces.scr0_A, Pieces.scr1_A]
    show Pieces.addLoss (wblk m c ⟨0, h⟩) (yblk m c ⟨0, h⟩) (k0_pay4 (F := Ideal)) = _
      ∧ Pieces.addCount (yblk m c ⟨0, h⟩) (k0_pay5 (F := Ideal)) = _
    rw [addLoss_blk, addCount_blk, Arith.pay4_apply, Arith.pay5_apply, ht]
    unfold accL accC
    rw [sum_upto_zero, sum_upto_zero, zero_add, zero_add]
    exact ⟨rfl, rfl⟩
  | succ n ih =>
    intro h
    have hn : n + 1 < 32 := lt_of_lt_of_eq h N_0
    have h0 : ¬(n + 1) % 32 = 0 := succ_mod_ne_zero n hn
    have ih' := ih (Nat.lt_of_succ_lt h)
    by_cases h1 : (n + 1) % 32 = 31
    · rw [outsAt0_C m c ⟨n + 1, h⟩ h0 h1]
      dsimp only
      rw [Pieces.scr0_C, Pieces.scr1_C]
      exact step_eq m c n h _ _ ih'.1 ih'.2
    · rw [outsAt0_B m c ⟨n + 1, h⟩ h0 h1]
      dsimp only
      rw [Pieces.scr0_B, Pieces.scr1_B]
      exact step_eq m c n h _ _ ih'.1 ih'.2

/-- The last point stores the loss into the output block. -/
theorem out_last (c : Dev nD) (h : 31 < cfg0.N) :
    (outsAt0 m c 31 h).1 = fun _ => loss (warr m c) (yarr m c) := by
  have h0 : ¬31 % 32 = 0 := by decide
  have h1 : 31 % 32 = 31 := by decide
  have ih := acc_eq m c 30 (Nat.lt_of_succ_lt h)
  have e : Pieces.addLoss (wblk m c ⟨31, h⟩) (yblk m c ⟨31, h⟩) (outsAt0 m c 30 (Nat.lt_of_succ_lt h)).2.1
        = (fun _ => accL m c 31)
      ∧ Pieces.addCount (yblk m c ⟨31, h⟩) (outsAt0 m c 30 (Nat.lt_of_succ_lt h)).2.2 = (fun _ => accC m c 31) :=
    step_eq m c 30 h _ _ ih.1 ih.2
  rw [outsAt0_C m c ⟨31, h⟩ h0 h1]
  dsimp only
  rw [Pieces.out_C]
  rw [e.1, e.2, accL_last, accC_last]
  exact pay3_loss (warr m c) (yarr m c)

/-- The kernel's result: the loss of the window maxima and the target, as the region finds the two arrays. -/
def result (c : Dev nD) : Buf (Elt Ideal) ((c.tc : Thread nD τ).loc main_v3) := fun _ => loss (warr m c) (yarr m c)

/-- The same over the launch contents of the two arguments: the window maxima are the host's max-reduce of the
    reshaped prediction, the target is the second argument untouched. -/
theorem result_eq (c : Dev nD) :
    result m c = fun _ => loss
      (Host.reduce (FloatOps.maximumf (F := Ideal) (φ := .f32)) (shapeCast S4096x2048x4 (m ((c : Thread nD τ).loc main_arg0)) shapeCasts_S4096x8192_S4096x2048x4)
        (constant (F := Ideal) S_ .f32 0xFF800000#32) reducesTo_S4096x2048x4_S4096x2048_d2 h_S_)
      (m ((c : Thread nD τ).loc main_arg1)) := by
  unfold result
  show (fun _ => loss (V m c main_v1) (V m c main_arg1)) = _
  rw [warr_eq m c, V_main_arg1 m c]

end Cert.KernelIdeal.KValue

end
-- ==== Proof.KernelRun.lean ====
/-
  The kernel's program, run: the one write-back, at the last grid point, puts the loss in the region's [1,1] result
  array; the reshape after the region reads it out as the scalar result; both arguments end unchanged.
-/
import proofs.«408400_j1391569404168_3_alg».proof.Proof.KernelAcc
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Cert.MaximaLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The last grid point, the only one whose output block is written back. -/
private abbrev tLast : Fin cfg0.N := ⟨31, by show 31 < grid0.N; decide⟩

/-- What the region's [1,1] result array ends with: the loss at its one index. -/
private abbrev lossArr (c : Dev nD) : Buf (Elt Ideal) ((cfg0.win 2).arr.view.loc (c.tc : Thread nD τ)) :=
  fun _ => loss (warr m c) (yarr m c)

/-- A point that writes the output back is the last one. -/
private theorem eq_last_of_flush (t : Fin cfg0.N) (hf : (cfg0.win 2).flush t = true) : t = tLast := by
  have h1 := (flush0_2 t).mp hf
  have h2 : t.val < 32 := lt_of_lt_of_eq t.isLt N_0
  exact Fin.ext (by show t.val = 31; omega)

/-- The one write-back writes the loss: the output block is the whole [1,1] array, so reading the array's final
    contents through it gives the same constant. -/
private theorem flushed_loss (c : Dev nD) (t : Fin cfg0.N) (hf : (cfg0.win 2).flush t = true) :
    (dats m 0 c).flushed 2 t = ((cfg0.win 2).blk t).view.read (Elt Ideal) (lossArr m c) := by
  obtain rfl := eq_last_of_flush t hf
  show (cfg0.win 2).cut (grid0.coords tLast) ((dats m 0 c).after 2 tLast) = _
  rw [after0_2]
  show (cfg0.win 2).cut (grid0.coords tLast) (outsAt0 m c 31 tLast.isLt).1 = _
  rw [out_last m c tLast.isLt]
  funext j
  rw [View.read_apply]
  show loss (warr m c) (yarr m c) = cast _ (loss (warr m c) (yarr m c))
  generalize loss (warr m c) (yarr m c) = L
  exact (cast_eq _ L).symm

/-- The last point's block, at offset zero and of extent one on both axes, holds every index of the array. -/
private theorem off_last : ∀ a : Fin 2, win0_2.index tLast a * win0_2.size a = 0 := by decide +kernel
private theorem ext_last : ∀ a : Fin 2, win0_2.xsize (grid0.coords tLast) a = 1 := by decide +kernel

/-- So the result array ends holding the loss. -/
private theorem final_loss (c : Dev nD) : (dats m 0 c).arrAt 2 cfg0.N = lossArr m c :=
  (dats m 0 c).arrAt_eq_of_cover 2 (lossArr m c) (flushed_loss m c) fun i =>
    ⟨tLast, (flush0_2 tLast).mpr rfl, by
      show i ∈ ((View.whole main_v2).slice (win0_2.rect tLast)).set
      rw [View.set_slice_whole, Rect.mem_set_unit]
      intro a
      have hi : (i a).val < 1 := lt_of_lt_of_eq (i a).isLt ((by decide : ∀ b : Fin 2, S1x1.size b = 1) a)
      show win0_2.index tLast a * win0_2.size a ≤ (i a).val
        ∧ (i a).val < win0_2.index tLast a * win0_2.size a + win0_2.xsize (grid0.coords tLast) a
      rw [off_last a, ext_last a]
      omega⟩

/-- The reshape after the region reads the loss out of the [1,1] array as the scalar result. -/
private theorem tail_loss (c : Dev nD) :
    Pipeline.afterTail₀ cfgs (dats m) 0 (V0 m) [hostOps1] c main_v3 = result m c := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = lossArr m c :=
    (Pipeline.withArrays_arr spec0 launch0.win.arr_inj c _ _ 2).trans (final_loss m c)
  funext i
  rw [hw]
  rfl

/-- Every weakly fair execution of the kernel's program terminates with the scalar result at the loss and the two
    arguments unchanged. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact (θ_run defs _ _).mono (fun _ h c =>
    ⟨((h c).2 main_v3 (Pipeline.mem_restRefs_of main_v3 (by decide) (by decide))).trans (tail_loss m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.KValue

end
-- ==== Proof.lean ====
/-
  The certificate: the kernel's program and the reference compute one loss.

  Both programs first take, for each of the 2048 target samples of a row, the maximum of the 4 prediction samples of
  its window (the same host reduction in both).  The reference then finds the strict local maxima of each target row
  among the interior samples, averages the squared distance between window maximum and target over them, and
  averages those row losses over the rows that have a maximum.  The kernel does the same tile by tile: its mask
  covers all 2048 lanes with cyclic neighbours and clears the two boundary lanes, whose terms are zero; it sums 128
  rows per grid point into two carried accumulators; and it counts the rows with a maximum by adding the floats 0
  and 1 where the reference adds integers and converts.  Over the extended reals the boundary terms vanish whatever
  the neighbours are (`x * 0 = 0`), a sum may be grouped by tiles, and the integer count does not wrap, so the two
  results are one function of the arguments (Proof/Spec.lean's `loss`): no finiteness of the inputs is used.
  The ideal pass rewrote nothing, so `preserves` is trivial; the kernel's frames are its generated frame
  certificates, the reference's frame is its run with the result dropped.
-/
import proofs.«408400_j1391569404168_3_alg».proof.Defs
import proofs.«408400_j1391569404168_3_alg».proof.Proof.Gen.Kernel
import proofs.«408400_j1391569404168_3_alg».proof.Proof.Gen.Kernel.Frame
import proofs.«408400_j1391569404168_3_alg».proof.Proof.Gen.KernelIdeal
import proofs.«408400_j1391569404168_3_alg».proof.Proof.Gen.KernelIdeal.Frame
import proofs.«408400_j1391569404168_3_alg».proof.Proof.Gen.ReferenceIdeal
import proofs.«408400_j1391569404168_3_alg».proof.Proof.Gen.Pre_finite_inputs
import proofs.«408400_j1391569404168_3_alg».proof.Proof.RefRun
import proofs.«408400_j1391569404168_3_alg».proof.Proof.RefRead
import proofs.«408400_j1391569404168_3_alg».proof.Proof.Reference
import proofs.«408400_j1391569404168_3_alg».proof.Proof.KernelRun
import Idealize.ShloMosaic.Adequacy
import Idealize.ShloMosaic.Init

noncomputable section

namespace Cert.Proof

open Idealize.ShloMosaic Idealize.SL.Sem

/-- The reference's window maxima are the same host term as the kernel's: the max-reduce over the last axis of the
    prediction reshaped [4096, 2048, 4], from `-inf`. -/
theorem ref_winmax (x0 : (⟨Cert.ReferenceIdeal.S4096x8192, .f32⟩ : BufTy).Contents (Elt Ideal)) :
    Cert.ReferenceIdeal.ReadP.val_main_v13 (F := Ideal) x0
      = Host.reduce (FloatOps.maximumf (F := Ideal) (φ := .f32))
          (shapeCast Cert.KernelIdeal.S4096x2048x4 x0 Cert.KernelIdeal.Facts₀.shapeCasts_S4096x8192_S4096x2048x4)
          (constant (F := Ideal) Cert.KernelIdeal.S_ .f32 0xFF800000#32)
          Cert.KernelIdeal.Facts₀.reducesTo_S4096x2048x4_S4096x2048_d2 Cert.KernelIdeal.Facts₀.h_S_ := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at the loss of the window maxima and the target, of arguments that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v35 m' c = Cert.KernelIdeal.KValue.result m c
  rw [Cert.ReferenceIdeal.ReadP.val_main_v35_eq, Cert.ReferenceIdeal.RefValue.result_eq_loss, ref_winmax,
    Cert.KernelIdeal.KValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
